-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S16x512x512 : Shape := ⟨3, ![16, 512, 512]⟩
abbrev S16x512 : Shape := ⟨2, ![16, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8192x512 .f32) (main_arg1 : FVec F S16x512x512 .f32) (main_arg2 : FVec F S16x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S8192x512 : Shape := ⟨2, ![8192, 512]⟩
abbrev S16x512x512 : Shape := ⟨3, ![16, 512, 512]⟩
abbrev S16x512 : Shape := ⟨2, ![16, 512]⟩
abbrev S16x1x512 : Shape := ⟨3, ![16, 1, 512]⟩
abbrev S16x8192x512 : Shape := ⟨3, ![16, 8192, 512]⟩
abbrev S2048x512 : Shape := ⟨2, ![2048, 512]⟩
abbrev S1x512x512 : Shape := ⟨3, ![1, 512, 512]⟩
abbrev S1x1x512 : Shape := ⟨3, ![1, 1, 512]⟩
abbrev S1x2048x512 : Shape := ⟨3, ![1, 2048, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S16x512, .f32⟩
  | .hbm, ⟨3, _⟩ => ⟨S16x1x512, .f32⟩
  | .hbm, ⟨4, _⟩ => ⟨S16x8192x512, .f32⟩
  | .local _ .vmem, ⟨0, _⟩ => ⟨S2048x512, .f32⟩
  | .local _ .vmem, ⟨1, _⟩ => ⟨S2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x512_S16x1x512 : S16x512.ShapeCasts S16x1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .f32 = 32 ∨ (Rect.block (s := S16x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x8192x512.size a
  hwx0_3 : ∀ i : grid0.Coords, EltTy.bits .f32 = 32 ∨ (Rect.block (s := S16x8192x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S16x512x512 : Shape := ⟨3, ![16, 512, 512]⟩
abbrev S16x512 : Shape := ⟨2, ![16, 512]⟩
abbrev S16x512x8192 : Shape := ⟨3, ![16, 512, 8192]⟩
abbrev S16x8192x512 : Shape := ⟨3, ![16, 8192, 512]⟩
abbrev S16x1x512 : Shape := ⟨3, ![16, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S16x512, .f32⟩
  | .hbm, ⟨3, _⟩ => ⟨S16x512x8192, .f32⟩
  | .hbm, ⟨4, _⟩ => ⟨S16x8192x512, .f32⟩
  | .hbm, ⟨5, _⟩ => ⟨S16x1x512, .f32⟩
  | .hbm, ⟨6, _⟩ => ⟨S16x8192x512, .f32⟩
  | .hbm, ⟨7, _⟩ => ⟨S16x8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16x512x8192_S16x8192x512_0_2_1 : S16x512x8192.Transposes [0, 2, 1] S16x8192x512
  bcast_S16x512_S16x1x512_0_2 : S16x512.BroadcastsInDim S16x1x512 (![0, 2] : Fin 2 → Fin S16x1x512.rank)
  bcast_S16x1x512_S16x8192x512_0_1_2 : S16x1x512.BroadcastsInDim S16x8192x512 (![0, 1, 2] : Fin 3 → Fin S16x8192x512.rank)
  dot_S16x512x512_S8192x512_S16x512x8192_2_1_01_0_n_n_wf : DotDims.WF S16x512x512 S8192x512 S16x512x8192 [2] [1] [0, 1] [0] [] []

variable [Facts₀]

def dot_S16x512x512_S8192x512_S16x512x8192_2_1_01_0_n_n : DotDims S16x512x512 S8192x512 S16x512x8192 where
  lhsContracting := [2]
  rhsContracting := [1]
  lhsNonContracting := [0, 1]
  rhsNonContracting := [0]
  lhsBatch := []
  rhsBatch := []
  wf := dot_S16x512x512_S8192x512_S16x512x8192_2_1_01_0_n_n_wf

class Facts : Prop extends Facts₀ where

variable [Facts]
-- ==== Proof.BodyAffine.lean ====
/-
  What one call of the kernel body computes, read at an index of its output block. The body loads a block of 2048
  token rows `xs`, one expert's weight matrix `ws` (with a leading axis of extent one) and that expert's bias row
  `bs` (two leading unit axes), and stores

      block 0 r o = (∑ d, xs r d * ws 0 o d) + bs 0 0 o :

  the matrix product contracts the input-feature axis of both operands into a zero accumulator, the narrowing of
  both operands to bf16 is the identity on extended reals, and the shape casts and the row broadcast only move
  indices.
-/
import proofs.«181043_j51926154609119_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.BodyAffine

open Idealize.ShloMosaic Idealize.ShloMosaic.ValueIdx Cert.KernelIdeal Cert.KernelIdeal.Gen

/-! ## The matrix product's operand indices -/

/-- The left operand's row is the output's row. -/
theorem lhs_row (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- The left operand's column is the contracted index. -/
theorem lhs_col (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- The right operand's row is the output's column: the weights are laid out (output feature, input feature). -/
theorem rhs_row (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- The right operand's column is the contracted index. -/
theorem rhs_col (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product into the zero accumulator, at row `r` and column `o`: `∑ d, a r d * w o d`. -/
theorem product_apply (a : FVec Ideal S2048x512 .bf16) (w : FVec Ideal S512x512 .bf16) (r : Fin 2048) (o : Fin 512) :
    matmul dot_S2048x512_S512x512_S2048x512_1_1_0_0_n_n none a w (constant (F := Ideal) S2048x512 .f32 0x00000000#32) (ix2 r o)
      = ∑ d : Fin 512, a (ix2 r d) * w (ix2 o d) := by
  simp only [matmul]
  rw [Ideal.matmul_constant_zero_apply, ← Equiv.sum_comp (contrEquiv1 dot_S2048x512_S512x512_S2048x512_1_1_0_0_n_n 512 rfl rfl).symm]
  refine Finset.sum_congr rfl fun d _ => ?_
  have hd := contrEquiv1_symm_val dot_S2048x512_S512x512_S2048x512_1_1_0_0_n_n 512 rfl rfl d
  have el : dot_S2048x512_S512x512_S2048x512_1_1_0_0_n_n.lhsIdx (ix2 r o) ((contrEquiv1 dot_S2048x512_S512x512_S2048x512_1_1_0_0_n_n 512 rfl rfl).symm d) = ix2 r d := funext fun c => Fin.ext (by
    match c with
    | ⟨0, _⟩ => exact lhs_row _ _
    | ⟨1, _⟩ => exact (lhs_col _ _).trans hd)
  have er : dot_S2048x512_S512x512_S2048x512_1_1_0_0_n_n.rhsIdx (ix2 r o) ((contrEquiv1 dot_S2048x512_S512x512_S2048x512_1_1_0_0_n_n 512 rfl rfl).symm d) = ix2 o d := funext fun c => Fin.ext (by
    match c with
    | ⟨0, _⟩ => exact rhs_row _ _
    | ⟨1, _⟩ => exact (rhs_col _ _).trans hd)
  rw [el, er]

/-! ## The stored block -/

/-- The body's stored value at (0, r, o), from its three loads. -/
theorem stored_apply (xs : Vec Ideal S2048x512 .f32) (ws : Vec Ideal S1x512x512 .f32) (bs : Vec Ideal S1x1x512 .f32)
    (u : Fin 1) (r : Fin 2048) (o : Fin 512) :
    k0_pay1 (F := Ideal) xs ws bs (ix3 u r o)
      = (∑ d : Fin 512, xs (ix2 r d) * ws (ix3 (0 : Fin 1) o d)) + bs (ix3 (0 : Fin 1) (0 : Fin 1) o) := by
  unfold k0_pay1
  rw [shapeCast_ab_1ab_apply, addf_apply, product_apply, broadcastTo_1b_ab_apply, shapeCast_1ab_ab_apply]
  refine congrArg (· + bs (ix3 (0 : Fin 1) (0 : Fin 1) o)) (Finset.sum_congr rfl fun d _ => ?_)
  rw [truncf_apply, truncf_apply, shapeCast_1ab_ab_apply]

/-- The same at any index of the block: only the row (coordinate 1) and the output feature (coordinate 2) matter. -/
theorem stored_at (xs : Vec Ideal S2048x512 .f32) (ws : Vec Ideal S1x512x512 .f32) (bs : Vec Ideal S1x1x512 .f32)
    (j : S1x2048x512.Idx) :
    k0_pay1 (F := Ideal) xs ws bs j
      = (∑ d : Fin 512, xs (ix2 (n0 := 2048) (n1 := 512) (j 1) d) * ws (ix3 (n0 := 1) (n1 := 512) (n2 := 512) (0 : Fin 1) (j 2) d))
        + bs (ix3 (n0 := 1) (n1 := 1) (n2 := 512) (0 : Fin 1) (0 : Fin 1) (j 2)) := by
  obtain ⟨u, r, o, rfl⟩ : ∃ (u : Fin 1) (r : Fin 2048) (o : Fin 512), j = ix3 u r o := ⟨j 0, j 1, j 2, eq_ix3 j⟩
  exact stored_apply xs ws bs u r o

end Cert.BodyAffine

end
-- ==== Proof.Affine.lean ====
/-
  The function both programs compute, over the extended reals: sixteen affine maps ("experts") applied to the same
  8192 token rows of width 512. Expert `e` has a 512 × 512 weight matrix `W e`, laid out (output feature, input
  feature), and a bias row `b e`; its output row for token `n` is `x n · (W e)ᵀ + b e`, that is

      out e n o = (∑ d, x n d * W e o d) + b e o.

  Stated once here, index by index over literal shapes, so that the kernel's array after its run and the
  reference's result can both be read as this one function of the argument arrays.
-/
import Idealize.ShloMosaic.PureOps.Ideal
import Idealize.ShloMosaic.Lib.ValueIdx

noncomputable section

namespace Cert.Affine

open Idealize.ShloMosaic Idealize.ShloMosaic.ValueIdx

/-- The token rows: 8192 rows of 512 input features. -/
abbrev Tokens : Shape := ⟨2, ![8192, 512]⟩
/-- The stacked weights: per expert a matrix indexed (output feature, input feature). -/
abbrev Weights : Shape := ⟨3, ![16, 512, 512]⟩
/-- The stacked biases: per expert one value per output feature. -/
abbrev Biases : Shape := ⟨2, ![16, 512]⟩
/-- The result: per expert, per token, one value per output feature. -/
abbrev Outputs : Shape := ⟨3, ![16, 8192, 512]⟩

/-- `out e n o = (∑ d, x n d * W e o d) + b e o`: every expert's affine map of every token row. -/
def experts (x : FVec Ideal Tokens .f32) (W : FVec Ideal Weights .f32) (b : FVec Ideal Biases .f32) :
    FVec Ideal Outputs .f32 :=
  fun i => (∑ d : Fin 512, x (ix2 (n0 := 8192) (n1 := 512) (i 1) d) * W (ix3 (n0 := 16) (n1 := 512) (n2 := 512) (i 0) (i 2) d))
    + b (ix2 (n0 := 16) (n1 := 512) (i 0) (i 2))

/-- The same at an index given by its coordinates (expert, token, output feature). -/
theorem experts_ix3 (x : FVec Ideal Tokens .f32) (W : FVec Ideal Weights .f32) (b : FVec Ideal Biases .f32)
    (e : Fin 16) (n : Fin 8192) (o : Fin 512) :
    experts x W b (ix3 e n o) = (∑ d : Fin 512, x (ix2 n d) * W (ix3 e o d)) + b (ix2 e o) := rfl

end Cert.Affine

end
-- ==== Proof.KernelAffine.lean ====
/-
  The kernel's output array after its run is `Affine.experts` of the argument arrays.

  The grid has 4 × 16 points (token tile, expert). At point (q, e) the pipeline stages rows 2048 q … 2048 q + 2047 of the
  tokens, expert `e`'s whole weight matrix, and expert `e`'s bias row — the bias matrix reaches the kernel with a unit
  axis inserted, (expert, 1, output feature) —, and writes back block (e, q, 0) of the output: rows 2048 q … of expert
  `e`. The body's stored block (`BodyAffine.stored_at`) read through those blocks is the specification restricted to
  the output block; the 64 output blocks tile the output array, so the array ends equal to the specification.
-/
import proofs.«181043_j51926154609119_1_alg».proof.Proof.Gen.KernelIdeal.Value
import proofs.«181043_j51926154609119_1_alg».proof.Proof.BodyAffine
import proofs.«181043_j51926154609119_1_alg».proof.Proof.Affine
import Idealize.ShloMosaic.Lib.StableHlo.Run

noncomputable section

namespace Cert.KernelAffine

open Cert.KernelIdeal Cert.KernelIdeal.Gen Idealize.ShloMosaic Idealize.ShloMosaic.TcCoe Idealize.SL.Sem
open Idealize.ShloMosaic.ValueIdx Idealize.ShloMosaic.StableHlo Cert.Affine Cert.BodyAffine
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The bias as the kernel finds it -/

/-- The array the bias window stages is the bias matrix re-laid with a unit middle axis. -/
theorem bias_array (c : Dev nD) :
    (V m c main_v0 : S16x1x512.Idx → EReal)
      = shapeCast S16x1x512 (m ((c : Thread nD τ).loc main_arg2)) shapeCasts_S16x512_S16x1x512 := by
  dsimp only [V, hostOps0]; after_results; rfl

/-- Its entry (e, 0, o) is the bias of expert `e` at output feature `o`. -/
theorem bias_array_apply (c : Dev nD) (e : Fin 16) (u : Fin 1) (o : Fin 512) :
    V m c main_v0 (ix3 e u o) = m ((c : Thread nD τ).loc main_arg2) (ix2 e o) := by
  rw [bias_array]
  refine shapeCast_apply _ _ _ _ ?_
  show (S16x512.rowMajor (ix2 e o)).val = (S16x1x512.rowMajor (ix3 e u o)).val
  rw [Shape.rowMajor_val_two, Shape.rowMajor_val_three]
  show e.val * 512 + o.val = (e.val * 1 + u.val) * 512 + o.val
  have hu : u.val = 0 := by omega
  rw [hu, Nat.mul_one, Nat.add_zero]

/-! ## Which blocks a point stages and writes -/

/-- Over the 64 points: the token block's row index is the output block's token index and its column index is 0; the weight
    block's and the bias block's expert index is the output block's, their other indices 0; the output block's expert
    index is below 16, its token index below 4, its feature index 0. -/
theorem block_indices : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (expert, token tile) is some point's output block. -/
theorem block_onto : ∀ (e : Fin 16) (q : Fin 4), ∃ t : Fin cfg0.N, win0_3.index t = ![e.val, q.val, 0] :=
  (by decide +kernel : ∀ (e : Fin 16) (q : Fin 4), ∃ t : Fin grid0.N, win0_3.index t = ![e.val, q.val, 0])

/-! ## What a point writes back -/

/-- Point `t` writes back block `t` of the specification of the arrays as the region finds them. -/
theorem flushed_eq (c : Dev nD) (t : Fin cfg0.N) :
    (dats m 0 c).flushed 3 t = ((cfg0.win 3).blk t).view.read (Elt Ideal)
      (experts (V m c main_arg0) (V m c main_arg1) (m ((c : Thread nD τ).loc main_arg2))) := by
  rw [Cert.KernelIdeal.Value.flushed3]
  unfold out0_3
  rw [View.canon_unit_zero zero3]
  simp only [View.ld_unit_zero (S := S2048x512) zero2, View.ld_unit_zero (S := S1x512x512) zero3,
    View.ld_unit_zero (S := S1x1x512) zero3]
  obtain ⟨h00, h01, h10, h11, h12, h20, h21, h22, -, -, h32⟩ := block_indices t
  funext j
  show k0_pay1 (F := Ideal) (iblk m c 0 t) (iblk m c 1 t) (iblk m c 2 t) j
    = experts (V m c main_arg0) (V m c main_arg1) (m ((c : Thread nD τ).loc main_arg2)) (((cfg0.win 3).blk t).view.emb j)
  refine (stored_at (iblk m c 0 t) (iblk m c 1 t) (iblk m c 2 t) j).trans ?_
  have hj0 : (j 0).val < 1 := (j 0).isLt
  -- the token entry read: row 2048 q + r of the tokens
  have hx : ∀ d : Fin 512, iblk m c 0 t (ix2 (n0 := 2048) (n1 := 512) (j 1) d)
      = V m c main_arg0 (ix2 (n0 := 8192) (n1 := 512) ((((cfg0.win 3).blk t).view.emb j) 1) d) := fun d => by
    show V m c main_arg0 (((cfg0.win 0).blk t).view.emb (ix2 (n0 := 2048) (n1 := 512) (j 1) d)) = _
    refine congrArg (V m c main_arg0) (funext fun a => Fin.ext ?_)
    match a with
    | ⟨0, _⟩ =>
      show win0_0.index t (0 : Fin 2) * 2048 + 1 * (j 1).val = win0_3.index t (1 : Fin 3) * 2048 + 1 * (j 1).val
      omega
    | ⟨1, _⟩ =>
      show win0_0.index t (1 : Fin 2) * 512 + 1 * d.val = d.val
      omega
  -- the weight entry read: expert e, output feature o, input feature d
  have hw : ∀ d : Fin 512, iblk m c 1 t (ix3 (n0 := 1) (n1 := 512) (n2 := 512) (0 : Fin 1) (j 2) d)
      = V m c main_arg1 (ix3 (n0 := 16) (n1 := 512) (n2 := 512) ((((cfg0.win 3).blk t).view.emb j) 0) ((((cfg0.win 3).blk t).view.emb j) 2) d) := fun d => by
    show V m c main_arg1 (((cfg0.win 1).blk t).view.emb (ix3 (n0 := 1) (n1 := 512) (n2 := 512) (0 : Fin 1) (j 2) d)) = _
    refine congrArg (V m c main_arg1) (funext fun a => Fin.ext ?_)
    match a with
    | ⟨0, _⟩ =>
      show win0_1.index t (0 : Fin 3) * 1 + 1 * 0 = win0_3.index t (0 : Fin 3) * 1 + 1 * (j 0).val
      omega
    | ⟨1, _⟩ =>
      show win0_1.index t (1 : Fin 3) * 512 + 1 * (j 2).val = win0_3.index t (2 : Fin 3) * 512 + 1 * (j 2).val
      omega
    | ⟨2, _⟩ =>
      show win0_1.index t (2 : Fin 3) * 512 + 1 * d.val = d.val
      omega
  -- the bias entry read: expert e, output feature o
  have hb : iblk m c 2 t (ix3 (n0 := 1) (n1 := 1) (n2 := 512) (0 : Fin 1) (0 : Fin 1) (j 2))
      = m ((c : Thread nD τ).loc main_arg2) (ix2 (n0 := 16) (n1 := 512) ((((cfg0.win 3).blk t).view.emb j) 0) ((((cfg0.win 3).blk t).view.emb j) 2)) := by
    show V m c main_v0 (((cfg0.win 2).blk t).view.emb (ix3 (n0 := 1) (n1 := 1) (n2 := 512) (0 : Fin 1) (0 : Fin 1) (j 2))) = _
    have he : ((cfg0.win 2).blk t).view.emb (ix3 (n0 := 1) (n1 := 1) (n2 := 512) (0 : Fin 1) (0 : Fin 1) (j 2))
        = ix3 (n0 := 16) (n1 := 1) (n2 := 512) ((((cfg0.win 3).blk t).view.emb j) 0) (0 : Fin 1) ((((cfg0.win 3).blk t).view.emb j) 2) :=
      funext fun a => Fin.ext (by
        match a with
        | ⟨0, _⟩ =>
          show win0_2.index t (0 : Fin 3) * 1 + 1 * 0 = win0_3.index t (0 : Fin 3) * 1 + 1 * (j 0).val
          omega
        | ⟨1, _⟩ =>
          show win0_2.index t (1 : Fin 3) * 1 + 1 * 0 = 0
          omega
        | ⟨2, _⟩ =>
          show win0_2.index t (2 : Fin 3) * 512 + 1 * (j 2).val = win0_3.index t (2 : Fin 3) * 512 + 1 * (j 2).val
          omega)
    rw [he]
    exact bias_array_apply m c _ _ _
  rw [hb]
  unfold experts
  refine congrArg (· + _) (Finset.sum_congr rfl fun d _ => ?_)
  rw [hx d, hw d]

/-! ## The output blocks tile the output array -/

/-- An index of the output array lies in point `t`'s block iff each coordinate is in the block's range on its axis. -/
theorem mem_block (t : Fin cfg0.N) (i : S16x8192x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v1).slice (win0_3.rect t)).set ↔ _
  rw [View.set_slice_whole, Rect.mem_set_unit]
  exact Iff.rfl

/-- Every index (e, n, o) lies in the block of the point with expert `e` and token tile `n / 2048`. -/
theorem covered (i : S16x8192x512.Idx) :
    ∃ t : Fin cfg0.N, (cfg0.win 3).flush t = true ∧ i ∈ ((cfg0.win 3).blk t).view.set := by
  have hi0 : (i 0).val < 16 := (i 0).isLt
  have hi1 : (i 1).val < 8192 := (i 1).isLt
  have hi2 : (i 2).val < 512 := (i 2).isLt
  obtain ⟨t, ht⟩ := block_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 512 ≤ (i 2).val ∧ (i 2).val < win0_3.index t (2 : Fin 3) * 512 + 512
    omega

/-! ## The array after the run, and the run -/

/-- The output array after the run is the specification of the argument arrays as launched. -/
theorem final (c : Dev nD) :
    (dats m 0 c).arrAt 3 cfg0.N
      = experts (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) covered

/-- Every weakly fair execution of the kernel's program terminates with the result array at the specification of the
    arguments, the arguments unchanged. -/
theorem run : θ_run defs (onTc (τ := τ) (main (F := Ideal))) ⟨m, fun _ => 0, ρ⟩ fun r => ∀ c : Dev nD,
      r.2.mem ((c : Thread nD τ).loc main_v1)
        = experts (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelAffine

end
-- ==== Proof.ReferenceAffine.lean ====
/-
  The reference computes `Affine.experts`. Its program is one contraction `W e o d · x n d` over `d` into an array
  indexed (expert, output feature, token), a transpose of the last two axes to (expert, token, output feature), the
  bias row broadcast over the tokens, and a sum. Read at an index (expert, token, output feature) this is
  `(∑ d, W e o d * x n d) + b e o`; the products commute, so it is the specification's value there.
-/
import proofs.«181043_j51926154609119_1_alg».proof.Proof.Gen.ReferenceIdeal.Read
import proofs.«181043_j51926154609119_1_alg».proof.Proof.Affine

noncomputable section

namespace Cert.ReferenceAffine

open Idealize.ShloMosaic Idealize.ShloMosaic.ValueIdx Cert.ReferenceIdeal Cert.ReferenceIdeal.Read Cert.Affine

/-- The weight entry the contraction reads for output index `i` and input feature `d`: (expert, output feature, d). -/
theorem weight_index (i : S16x8192x512.Idx) (d : Fin 512) :
    lidx_main_v0 (idx_main_v1 i) d = ix3 (n0 := 16) (n1 := 512) (n2 := 512) (i 0) (i 2) d :=
  funext fun a => Fin.ext (by match a with | ⟨0, _⟩ => rfl | ⟨1, _⟩ => rfl | ⟨2, _⟩ => rfl)

/-- The token entry it reads: (token, d). -/
theorem token_index (i : S16x8192x512.Idx) (d : Fin 512) :
    ridx_main_v0 (idx_main_v1 i) d = ix2 (n0 := 8192) (n1 := 512) (i 1) d :=
  funext fun a => Fin.ext (by match a with | ⟨0, _⟩ => rfl | ⟨1, _⟩ => rfl)

/-- The bias entry the two broadcasts read: (expert, output feature). -/
theorem bias_index (i : S16x8192x512.Idx) :
    idx_main_v2 (idx_main_v3 i) = ix2 (n0 := 16) (n1 := 512) (i 0) (i 2) :=
  funext fun a => Fin.ext (by match a with | ⟨0, _⟩ => rfl | ⟨1, _⟩ => rfl)

/-- The reference's result, as a function of its three arguments, is the specification. -/
theorem result_eq (x : FVec Ideal S8192x512 .f32) (W : FVec Ideal S16x512x512 .f32) (b : FVec Ideal S16x512 .f32) :
    val_main_v4 (F := Ideal) x W b = experts x W b := by
  funext i
  rw [val_main_v4_apply, val_main_v1_apply, val_main_v0_apply, val_main_v3_apply, val_main_v2_apply]
  simp only [weight_index, token_index, bias_index]
  show (∑ d : Fin 512, W (ix3 (i 0) (i 2) d) * x (ix2 (i 1) d)) + b (ix2 (i 0) (i 2)) = _
  unfold experts
  exact congrArg (· + b (ix2 (i 0) (i 2))) (Finset.sum_congr rfl fun d _ => mul_comm _ _)

end Cert.ReferenceAffine

end
-- ==== Proof.lean ====
/-
  Sixteen per-expert affine maps of 8192 token rows, `out e n o = (∑ d, x n d * W e o d) + b e o`, computed two ways.

  The kernel walks a 4 × 16 grid (token tile, expert): at each point it multiplies a tile of 2048 token rows by one
  expert's weight matrix, contracting the input-feature axis of both, into a zero accumulator, adds that expert's bias
  row to every row, and writes one (expert, token tile) block of the output; the operands are narrowed to bf16 first,
  which changes nothing over the extended reals. The reference contracts all experts' weights against all tokens at
  once into an array indexed (expert, output feature, token), transposes it to (expert, token, output feature), and
  adds the broadcast biases.

  Both are the one function `Affine.experts` of the three argument arrays: the kernel's output blocks are the
  restrictions of that function to a tiling of the output array (`KernelAffine.final`), and the reference's term read at
  an index is the same sum with each product's factors exchanged (`ReferenceAffine.result_eq`). Only commutativity of the
  product is used, so the finiteness of the inputs is never opened. No operation of the kernel is replaced in
  its reading over the extended reals, so there is nothing to preserve; each program's frame is its run with the result
  forgotten.
-/
import proofs.«181043_j51926154609119_1_alg».proof.Defs
import proofs.«181043_j51926154609119_1_alg».proof.Proof.Gen.Kernel
import proofs.«181043_j51926154609119_1_alg».proof.Proof.Gen.Kernel.Skeleton
import proofs.«181043_j51926154609119_1_alg».proof.Proof.Gen.Kernel.Launch
import proofs.«181043_j51926154609119_1_alg».proof.Proof.Gen.Kernel.Points
import proofs.«181043_j51926154609119_1_alg».proof.Proof.Gen.Kernel.Frame
import proofs.«181043_j51926154609119_1_alg».proof.Proof.Gen.KernelIdeal
import proofs.«181043_j51926154609119_1_alg».proof.Proof.Gen.KernelIdeal.Skeleton
import proofs.«181043_j51926154609119_1_alg».proof.Proof.Gen.KernelIdeal.Launch
import proofs.«181043_j51926154609119_1_alg».proof.Proof.Gen.KernelIdeal.Points
import proofs.«181043_j51926154609119_1_alg».proof.Proof.Gen.KernelIdeal.Frame
import proofs.«181043_j51926154609119_1_alg».proof.Proof.Gen.ReferenceIdeal
import proofs.«181043_j51926154609119_1_alg».proof.Proof.Gen.Pre_finite_inputs
import proofs.«181043_j51926154609119_1_alg».proof.Proof.Gen.KernelIdeal.Value
import proofs.«181043_j51926154609119_1_alg».proof.Proof.Gen.ReferenceIdeal.Run
import proofs.«181043_j51926154609119_1_alg».proof.Proof.Gen.ReferenceIdeal.Read
import proofs.«181043_j51926154609119_1_alg».proof.Proof.KernelAffine
import proofs.«181043_j51926154609119_1_alg».proof.Proof.ReferenceAffine
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the three arguments both programs end with the result array at `Affine.experts` of those
    arguments. -/
theorem algebraic : Cert.algebraic_KernelIdeal_ReferenceIdeal := by
  intro m ρ m' ρ' _ hagree
  refine ⟨_, Cert.KernelAffine.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceAffine.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
